-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8x4096x64 : Shape := ⟨4, ![1, 8, 4096, 64]⟩
abbrev S_ : Shape := ⟨0, ![]⟩

class Facts : Prop where
  bcast_S_S1x8x4096x64 : S_.BroadcastsInDim S1x8x4096x64 (![] : Fin 0 → Fin S1x8x4096x64.rank)
  reducesTo_S1x8x4096x64_S_d0_1_2_3 : S1x8x4096x64.ReducesTo [0, 1, 2, 3] S_
  h_S_ : 0 < S_.numel

variable [Facts]

def fn {F : FTy → Type} [FloatOps F] (main_arg0 : FVec F S1x8x4096x64 .f32) (main_arg1 : FVec F S1x8x4096x64 .f32) : IVec S_ 1 :=
  let main_v0 : FVec F S1x8x4096x64 .f32 := Host.absf main_arg0
  let main_cst : FVec F S_ .f32 := constant S_ .f32 0x7F800000#32
  let main_v1 : FVec F S1x8x4096x64 .f32 := broadcastInDim S1x8x4096x64 ![] bcast_S_S1x8x4096x64 main_cst
  let main_v2 : IVec S1x8x4096x64 1 := cmpf .olt main_v0 main_v1
  let main_c : IVec S_ 1 := constantI S_ 1 1#1
  let main_v3 : IVec S_ 1 := (fun x v => Host.reduce IntOp.andi x v reducesTo_S1x8x4096x64_S_d0_1_2_3 h_S_) main_v2 main_c
  let main_v4 : FVec F S1x8x4096x64 .f32 := Host.absf main_arg1
  let main_cst_0 : FVec F S_ .f32 := constant S_ .f32 0x7F800000#32
  let main_v5 : FVec F S1x8x4096x64 .f32 := broadcastInDim S1x8x4096x64 ![] bcast_S_S1x8x4096x64 main_cst_0
  let main_v6 : IVec S1x8x4096x64 1 := cmpf .olt main_v4 main_v5
  let main_c_1 : IVec S_ 1 := constantI S_ 1 1#1
  let main_v7 : IVec S_ 1 := (fun x v => Host.reduce IntOp.andi x v reducesTo_S1x8x4096x64_S_d0_1_2_3 h_S_) main_v6 main_c_1
  let main_v8 : IVec S_ 1 := andi main_v3 main_v7
  main_v8
-- ==== Kernel.lean ====
abbrev S1x8x4096x64 : Shape := ⟨4, ![1, 8, 4096, 64]⟩
abbrev S8x4096x64 : Shape := ⟨3, ![8, 4096, 64]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S8x4096x4096 : Shape := ⟨3, ![8, 4096, 4096]⟩
abbrev S1x8x4096x4096 : Shape := ⟨4, ![1, 8, 4096, 4096]⟩
abbrev S1x256x64 : Shape := ⟨3, ![1, 256, 64]⟩
abbrev S1x4096x64 : Shape := ⟨3, ![1, 4096, 64]⟩
abbrev S1x256x1 : Shape := ⟨3, ![1, 256, 1]⟩
abbrev S1x1x4096 : Shape := ⟨3, ![1, 1, 4096]⟩
abbrev S1x256x4096 : Shape := ⟨3, ![1, 256, 4096]⟩
abbrev S256x64 : Shape := ⟨2, ![256, 64]⟩
abbrev S4096x64 : Shape := ⟨2, ![4096, 64]⟩
abbrev S256x1 : Shape := ⟨2, ![256, 1]⟩
abbrev S1x4096 : Shape := ⟨2, ![1, 4096]⟩
abbrev S256x4096 : Shape := ⟨2, ![256, 4096]⟩

abbrev nBuf : Space → Nat
  | .hbm => 15
  | .vmem => 10
  | .smem => 0
  | _ => 0

abbrev bufTy : (tb : Table) → Fin (tcTables nBuf tb) → BufTy
  | .hbm, ⟨0, _⟩ => ⟨S1x8x4096x64, .f32⟩
  | .hbm, ⟨1, _⟩ => ⟨S1x8x4096x64, .f32⟩
  | .hbm, ⟨2, _⟩ => ⟨S8x4096x64, .f32⟩
  | .hbm, ⟨3, _⟩ => ⟨S8x4096x64, .f32⟩
  | .hbm, ⟨4, _⟩ => ⟨S8x4096x64, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S8x4096x64, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S8x1x4096, .f32⟩
  | .hbm, ⟨13, _⟩ => ⟨S8x4096x4096, .f32⟩
  | .hbm, ⟨14, _⟩ => ⟨S1x8x4096x4096, .f32⟩
  | .local _ .vmem, ⟨0, _⟩ => ⟨S1x256x64, .f32⟩
  | .local _ .vmem, ⟨1, _⟩ => ⟨S1x256x64, .f32⟩
  | .local _ .vmem, ⟨2, _⟩ => ⟨S1x4096x64, .f32⟩
  | .local _ .vmem, ⟨3, _⟩ => ⟨S1x4096x64, .f32⟩
  | .local _ .vmem, ⟨4, _⟩ => ⟨S1x256x1, .f32⟩
  | .local _ .vmem, ⟨5, _⟩ => ⟨S1x256x1, .f32⟩
  | .local _ .vmem, ⟨6, _⟩ => ⟨S1x1x4096, .f32⟩
  | .local _ .vmem, ⟨7, _⟩ => ⟨S1x1x4096, .f32⟩
  | .local _ .vmem, ⟨8, _⟩ => ⟨S1x256x4096, .f32⟩
  | .local _ .vmem, ⟨9, _⟩ => ⟨S1x256x4096, .f32⟩
  | _, _ => ⟨S1x8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_cst : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_cst_0 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S1x8x4096x64_S8x4096x64 : S1x8x4096x64.ShapeCasts S8x4096x64
  reducesTo_S8x4096x64_S8x4096_d2 : S8x4096x64.ReducesTo [2] S8x4096
  h_S_ : 0 < S_.numel
  bcast_S8x4096_S8x4096x1_0_1 : S8x4096.BroadcastsInDim S8x4096x1 (![0, 1] : Fin 2 → Fin S8x4096x1.rank)
  transposes_S8x4096x1_S8x1x4096_0_2_1 : S8x4096x1.Transposes [0, 2, 1] S8x1x4096
  shapeCasts_S8x4096x4096_S1x8x4096x4096 : S8x4096x4096.ShapeCasts S1x8x4096x4096
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  bitsLt_bf16_f32 : FTy.bits .bf16 < FTy.bits .f32
  broadcasts_S256x1_S256x4096 : S256x1.Broadcasts S256x4096
  broadcasts_S1x4096_S256x4096 : S1x4096.Broadcasts S256x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S256x4096_S1x256x4096 : S256x4096.ShapeCasts S1x256x4096
  dot_S256x64_S4096x64_S256x4096_1_1_0_0_n_n_wf : DotDims.WF S256x64 S4096x64 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S8x4096x64.size a
  hwx0_0 : ∀ i : grid0.Coords, EltTy.bits .f32 = 32 ∨ (Rect.block (s := S8x4096x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S8x4096x64.size a
  hwx0_1 : ∀ i : grid0.Coords, EltTy.bits .f32 = 32 ∨ (Rect.block (s := S8x4096x64) S1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S8x4096x1.size a
  hwx0_2 : ∀ i : grid0.Coords, EltTy.bits .f32 = 32 ∨ (Rect.block (s := S8x4096x1) S1x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x4096.size a ≤ S8x4096x4096.size a
  hwx0_4 : ∀ i : grid0.Coords, EltTy.bits .f32 = 32 ∨ (Rect.block (s := S8x4096x4096) S1x256x4096.size (cc0_transform_4 i) (hinb0_4 i)).WholeWords (EltTy.packing .f32)

variable [Facts₀]

def dot_S256x64_S4096x64_S256x4096_1_1_0_0_n_n : DotDims S256x64 S4096x64 S256x4096 where
  lhsContracting := [1]
  rhsContracting := [1]
  lhsNonContracting := [0]
  rhsNonContracting := [0]
  lhsBatch := []
  rhsBatch := []
  wf := dot_S256x64_S4096x64_S256x4096_1_1_0_0_n_n_wf

abbrev win0_0 : Pipeline.Window sig grid0 :=
  Pipeline.Window.ofSpec (Memref.whole main_call0_v0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v4) S1x256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v8) S1x1x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v9) S1x256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x8x4096x64 : Shape := ⟨4, ![1, 8, 4096, 64]⟩
abbrev S_ : Shape := ⟨0, ![]⟩
abbrev S1x8x4096 : Shape := ⟨3, ![1, 8, 4096]⟩
abbrev S1x8x4096x4096 : Shape := ⟨4, ![1, 8, 4096, 4096]⟩
abbrev S1x8x4096x1 : Shape := ⟨4, ![1, 8, 4096, 1]⟩
abbrev S1x8x1x4096 : Shape := ⟨4, ![1, 8, 1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S1x8x4096x64, .f32⟩
  | .hbm, ⟨1, _⟩ => ⟨S1x8x4096x64, .f32⟩
  | .hbm, ⟨2, _⟩ => ⟨S1x8x4096x64, .f32⟩
  | .hbm, ⟨3, _⟩ => ⟨S_, .f32⟩
  | .hbm, ⟨4, _⟩ => ⟨S1x8x4096, .f32⟩
  | .hbm, ⟨5, _⟩ => ⟨S1x8x4096x64, .f32⟩
  | .hbm, ⟨6, _⟩ => ⟨S_, .f32⟩
  | .hbm, ⟨7, _⟩ => ⟨S1x8x4096, .f32⟩
  | .hbm, ⟨8, _⟩ => ⟨S1x8x4096x4096, .f32⟩
  | .hbm, ⟨9, _⟩ => ⟨S1x8x4096x1, .f32⟩
  | .hbm, ⟨10, _⟩ => ⟨S1x8x1x4096, .f32⟩
  | .hbm, ⟨11, _⟩ => ⟨S1x8x4096x4096, .f32⟩
  | .hbm, ⟨12, _⟩ => ⟨S1x8x4096x4096, .f32⟩
  | .hbm, ⟨13, _⟩ => ⟨S1x8x4096x4096, .f32⟩
  | .hbm, ⟨14, _⟩ => ⟨S_, .f32⟩
  | .hbm, ⟨15, _⟩ => ⟨S1x8x4096x4096, .f32⟩
  | .hbm, ⟨16, _⟩ => ⟨S1x8x4096x4096, .f32⟩
  | .hbm, ⟨17, _⟩ => ⟨S1x8x4096x4096, .f32⟩
  | .hbm, ⟨18, _⟩ => ⟨S_, .f32⟩
  | .hbm, ⟨19, _⟩ => ⟨S1x8x4096x4096, .f32⟩
  | .hbm, ⟨20, _⟩ => ⟨S1x8x4096x4096, .f32⟩
  | .hbm, ⟨21, _⟩ => ⟨S_, .f32⟩
  | .hbm, ⟨22, _⟩ => ⟨S1x8x4096x4096, .f32⟩
  | .hbm, ⟨23, _⟩ => ⟨S1x8x4096x4096, .f32⟩
  | .hbm, ⟨24, _⟩ => ⟨S1x8x4096x4096, .f32⟩
  | _, _ => ⟨S1x8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S1x8x4096x64_S1x8x4096_d3 : S1x8x4096x64.ReducesTo [3] S1x8x4096
  h_S_ : 0 < S_.numel
  bcast_S1x8x4096_S1x8x4096x1_0_1_2 : S1x8x4096.BroadcastsInDim S1x8x4096x1 (![0, 1, 2] : Fin 3 → Fin S1x8x4096x1.rank)
  bcast_S1x8x4096_S1x8x1x4096_0_1_3 : S1x8x4096.BroadcastsInDim S1x8x1x4096 (![0, 1, 3] : Fin 3 → Fin S1x8x1x4096.rank)
  bcast_S1x8x4096x1_S1x8x4096x4096_0_1_2_3 : S1x8x4096x1.BroadcastsInDim S1x8x4096x4096 (![0, 1, 2, 3] : Fin 4 → Fin S1x8x4096x4096.rank)
  bcast_S1x8x1x4096_S1x8x4096x4096_0_1_2_3 : S1x8x1x4096.BroadcastsInDim S1x8x4096x4096 (![0, 1, 2, 3] : Fin 4 → Fin S1x8x4096x4096.rank)
  bcast_S_S1x8x4096x4096 : S_.BroadcastsInDim S1x8x4096x4096 (![] : Fin 0 → Fin S1x8x4096x4096.rank)
  dot_S1x8x4096x64_S1x8x4096x64_S1x8x4096x4096_3_3_2_2_01_01_wf : DotDims.WF S1x8x4096x64 S1x8x4096x64 S1x8x4096x4096 [3] [3] [2] [2] [0, 1] [0, 1]

variable [Facts₀]

def dot_S1x8x4096x64_S1x8x4096x64_S1x8x4096x4096_3_3_2_2_01_01 : DotDims S1x8x4096x64 S1x8x4096x64 S1x8x4096x4096 where
  lhsContracting := [3]
  rhsContracting := [3]
  lhsNonContracting := [2]
  rhsNonContracting := [2]
  lhsBatch := [0, 1]
  rhsBatch := [0, 1]
  wf := dot_S1x8x4096x64_S1x8x4096x64_S1x8x4096x4096_3_3_2_2_01_01_wf

class Facts : Prop extends Facts₀ where

variable [Facts]
-- ==== Proof.Spec.lean ====
/-
  The function both programs compute, stated once over the argument arrays.

  For a query array q and a key array k, both f32[1, 8, 4096, 64], the result at (0, h, r, n) is

      exp( -1/2 · max( (‖q[h,r]‖² + ‖k[h,n]‖²) − 2 · ⟨q[h,r], k[h,n]⟩ , 0 ) )

  on the extended reals: ‖x[h,r]‖² is 0 plus the sum over the 64 features of the squares, ⟨·,·⟩ the sum of the
  products, and the three float literals are kept as their words (the same words on both sides, never evaluated).
-/
import Idealize.ShloMosaic.PureOps.Ideal
import Idealize.ShloMosaic.Lib.ValueIdx

noncomputable section

namespace Cert.Rbf

open Idealize.ShloMosaic Idealize.ShloMosaic.ValueIdx

/-- The argument arrays' index type: (batch, head, row, feature). -/
abbrev ArgIdx : Type := (⟨4, ![1, 8, 4096, 64]⟩ : Shape).Idx
/-- The result's index type: (batch, head, query row, key row). -/
abbrev OutIdx : Type := (⟨4, ![1, 8, 4096, 4096]⟩ : Shape).Idx

/-- The squared norm of row `r` of head `h`: zero plus the sum of the squares of its 64 features. -/
def sqNorm (x : ArgIdx → EReal) (h : Fin 8) (r : Fin 4096) : EReal :=
  Ideal.ofBits .f32 0x00000000#32 + ∑ d : Fin 64, x (ix4 0 h r d) * x (ix4 0 h r d)

/-- The inner product of query row `r` and key row `n` of head `h`. -/
def inner (q k : ArgIdx → EReal) (h : Fin 8) (r n : Fin 4096) : EReal :=
  ∑ d : Fin 64, q (ix4 0 h r d) * k (ix4 0 h n d)

/-- The radial kernel of query row `r` against key row `n`, head `h`: the squared distance written as
    ‖q‖² + ‖k‖² − 2⟨q, k⟩, clipped below at zero, scaled by −1/2 and exponentiated. -/
def rbfAt (q k : ArgIdx → EReal) (h : Fin 8) (r n : Fin 4096) : EReal :=
  Ideal.exp (Ideal.ofBits .f32 0xBF000000#32 *
    max ((sqNorm q h r + sqNorm k h n) - Ideal.ofBits .f32 0x40000000#32 * inner q k h r n)
      (Ideal.ofBits .f32 0x00000000#32))

/-- The whole result array. -/
def rbf (q k : ArgIdx → EReal) : OutIdx → EReal := fun i => rbfAt q k (i 1) (i 2) (i 3)

theorem rbf_ix4 (q k : ArgIdx → EReal) (a : Fin 1) (h : Fin 8) (r n : Fin 4096) :
    rbf q k (ix4 a h r n) = rbfAt q k h r n := rfl

end Cert.Rbf

end
-- ==== Proof.RefValue.lean ====
/-
  The reference, read index by index, is the radial-kernel function of its two arguments.

  At (0, h, r, n) the reference's last value is exp of −1/2 times the maximum with zero of
  (q2 + k2) − 2 · qk, where q2 is the row sum of squares of the query broadcast along the key axis, k2 the same of
  the key broadcast along the query axis, and qk the batched product contracting the feature axis: exactly the
  specification's `rbfAt`, once each broadcast's and each sum's index is named by its coordinates.
-/
import proofs.«155053_j75196287418966_1_alg».proof.Proof.Gen.ReferenceIdeal.Read
import proofs.«155053_j75196287418966_1_alg».proof.Proof.Spec

noncomputable section

namespace Cert.Rbf.Ref

open Cert.ReferenceIdeal Cert.ReferenceIdeal.Read Idealize.ShloMosaic Idealize.ShloMosaic.ValueIdx Cert.Rbf

/-- The query's squared norm is summed at (0, h, r, d): the two broadcasts and the reduction's lift compose to it. -/
theorem idx_q2 (h : Fin 8) (r n : Fin 4096) (d : Fin 64) :
    idx_main_v1 (idx_main_v5 (idx_main_v7 (ix4 (0 : Fin 1) h r n))) d = ix4 (0 : Fin 1) h r d :=
  funext fun a => Fin.ext (by match a with | ⟨0, _⟩ => rfl | ⟨1, _⟩ => rfl | ⟨2, _⟩ => rfl | ⟨3, _⟩ => rfl)

/-- The key's squared norm is summed at (0, h, n, d). -/
theorem idx_k2 (h : Fin 8) (r n : Fin 4096) (d : Fin 64) :
    idx_main_v3 (idx_main_v6 (idx_main_v8 (ix4 (0 : Fin 1) h r n))) d = ix4 (0 : Fin 1) h n d :=
  funext fun a => Fin.ext (by match a with | ⟨0, _⟩ => rfl | ⟨1, _⟩ => rfl | ⟨2, _⟩ => rfl | ⟨3, _⟩ => rfl)

/-- The product's left operand is read at (0, h, r, d), -/
theorem idx_l (h : Fin 8) (r n : Fin 4096) (d : Fin 64) :
    lidx_main_v4 (ix4 (0 : Fin 1) h r n) d = ix4 (0 : Fin 1) h r d :=
  funext fun a => Fin.ext (by match a with | ⟨0, _⟩ => rfl | ⟨1, _⟩ => rfl | ⟨2, _⟩ => rfl | ⟨3, _⟩ => rfl)

/-- and its right operand at (0, h, n, d). -/
theorem idx_r (h : Fin 8) (r n : Fin 4096) (d : Fin 64) :
    ridx_main_v4 (ix4 (0 : Fin 1) h r n) d = ix4 (0 : Fin 1) h n d :=
  funext fun a => Fin.ext (by match a with | ⟨0, _⟩ => rfl | ⟨1, _⟩ => rfl | ⟨2, _⟩ => rfl | ⟨3, _⟩ => rfl)

/-- The reference's result is the radial-kernel function of its arguments. -/
theorem result_eq (x0 x1 : (⟨S1x8x4096x64, .f32⟩ : BufTy).Contents (Elt Ideal)) :
    val_main_v17 (F := Ideal) x0 x1 = rbf x0 x1 := by
  funext i
  obtain ⟨a, h, r, n, rfl⟩ : ∃ (a : Fin 1) (h : Fin 8) (r n : Fin 4096), i = ix4 a h r n :=
    ⟨i 0, i 1, i 2, i 3, eq_ix4 i⟩
  obtain rfl : a = 0 := Subsingleton.elim _ _
  rw [rbf_ix4, val_main_v17_apply, val_main_v16_apply, val_main_v15_apply, val_main_cst_3_apply,
    val_main_v14_apply, val_main_v13_apply, val_main_cst_2_apply, val_main_v12_apply,
    val_main_v9_apply, val_main_v7_apply, val_main_v5_apply, val_main_v1_apply,
    val_main_v8_apply, val_main_v6_apply, val_main_v3_apply,
    val_main_v11_apply, val_main_v10_apply, val_main_cst_1_apply, val_main_v4_apply]
  simp only [val_main_v0_apply, val_main_v2_apply, val_main_cst_apply, val_main_cst_0_apply,
    idx_q2, idx_k2, idx_l, idx_r, Ideal.ofBits_def, Ideal.mulf_def, Ideal.addf_def, Ideal.subf_def,
    Ideal.maximumf_def, Ideal.hostUnary_exp_def]
  rfl

end Cert.Rbf.Ref

end
-- ==== Proof.LibMatmulTransposedRhs.lean ====
/-
  A general lemma. The matrix product of an [M, K] array by the TRANSPOSE of an [N, K] array (both operands
  contracted on their second axis, no batch axes), accumulated into the zero array and read at the exact
  instance, is at entry (p, q) the finite sum over the contraction coordinate k of left (p, k) · right (q, k).
  It holds for all sizes and both operands' formats.
-/
import Idealize.ShloMosaic.Lib.ValueIdx
import Idealize.ShloMosaic.PureOps.Ideal.Laws

namespace Idealize.ShloMosaic.MatmulTransposedRhs

open Idealize.ShloMosaic Idealize.ShloMosaic.ValueIdx

variable {M K N : ℕ}

/-- The left operand's row coordinate is the result's row coordinate. -/
theorem lhs_row (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction coordinate. -/
theorem lhs_col (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row coordinate is the result's column coordinate. -/
theorem rhs_row (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction coordinate. -/
theorem rhs_col (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- Entry (p, q) of the product by the transpose, into a zero accumulator, is ∑ k, left (p, k) · right (q, k). -/
theorem matmul_zero_apply {φ₁ φ₂ : FTy} (prec : Option ContractPrecision)
    (l : FVec Ideal ⟨2, ![M, K]⟩ φ₁) (r : FVec Ideal ⟨2, ![N, K]⟩ φ₂) (p : Fin M) (q : Fin N) :
    matmul (DotDims.transposedRhs M K N) prec l r (constant ⟨2, ![M, N]⟩ .f32 0x00000000#32) (ix2 p q)
      = ∑ k : Fin K, l (ix2 p k) * r (ix2 q k) := by
  show FloatOps.matmul (DotDims.transposedRhs M K N) prec l r (constant ⟨2, ![M, N]⟩ .f32 0x00000000#32) (ix2 p q) = _
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row _ _
      | ⟨1, _⟩ => exact (lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row _ _
      | ⟨1, _⟩ => exact (rhs_col _ _).trans hk)
  rw [el, er]

end Idealize.ShloMosaic.MatmulTransposedRhs
-- ==== Proof.KernelBody.lean ====
/-
  What the kernel body stores, entry by entry.

  The body casts the unit axis off its four loaded blocks, takes the query block times the transpose of the key
  block into a zero accumulator (the cast of both operands to a narrower format is the identity on the extended
  reals), spreads the column of query norms along the rows and the row of key norms along the columns, and stores
  exp(−1/2 · max((q2 + k2) − 2 · qk, 0)) with the unit axis put back. At entry (0, r, n) of the stored block this
  reads the query block's row r, the key block's row n, the query norm at r and the key norm at n.
-/
import proofs.«155053_j75196287418966_1_alg».proof.Proof.Gen.KernelIdeal.Skeleton
import proofs.«155053_j75196287418966_1_alg».proof.Proof.LibMatmulTransposedRhs
import Idealize.ShloMosaic.Lib.Pipeline.Value
import Idealize.ShloMosaic.Lib.ValueIdx
import Idealize.ShloMosaic.PureOps.Ideal.Laws

noncomputable section

namespace Cert.Rbf.Body

open Cert.KernelIdeal Cert.KernelIdeal.Gen Idealize.ShloMosaic Idealize.ShloMosaic.ValueIdx

/-- A [1, a, b] block with its unit axis cast away, at (p, q), is the block at (0, p, q). -/
theorem dropUnit_apply {α : Type} {a b : ℕ} (v : (⟨3, ![1, a, b]⟩ : Shape).Idx → α)
    (h : (⟨3, ![1, a, b]⟩ : Shape).ShapeCasts ⟨2, ![a, b]⟩) (p : Fin a) (q : Fin b) :
    shapeCast ⟨2, ![a, b]⟩ v h (ix2 p q) = v (ix3 (0 : Fin 1) p q) := by
  rw [shapeCast_dropUnit_apply ![a, b] v h (ix2 p q)]
  exact congrArg v (funext fun e => by match e with | ⟨0, _⟩ => rfl | ⟨1, _⟩ => rfl | ⟨2, _⟩ => rfl)

/-- An [a, b] array with a unit axis put in front, at (0, p, q), is the array at (p, q). -/
theorem addUnit_apply {α : Type} {a b : ℕ} (v : (⟨2, ![a, b]⟩ : Shape).Idx → α)
    (h : (⟨2, ![a, b]⟩ : Shape).ShapeCasts ⟨3, ![1, a, b]⟩) (z : Fin 1) (p : Fin a) (q : Fin b) :
    shapeCast ⟨3, ![1, a, b]⟩ v h (ix3 z p q) = v (ix2 p q) := by
  rw [shapeCast_addUnit_apply ![a, b] v h (ix3 z p q)]
  exact congrArg v (funext fun e => by match e with | ⟨0, _⟩ => rfl | ⟨1, _⟩ => rfl)

/-- A column [a, 1] spread to [a, b], at (p, q), is the column at (p, 0). -/
theorem spreadColumn_apply {α : Type} {a b : ℕ} (hb : b ≠ 1) (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun e => ?_
  match e with
  | ⟨0, _⟩ =>
    show p.val = if a = 1 then 0 else p.val
    split
    · have := p.isLt; omega
    · rfl
  | ⟨1, _⟩ => show 0 = if (1 : ℕ) = 1 then 0 else q.val; rw [if_pos rfl]

/-- A row [1, b] spread to [a, b], at (p, q), is the row at (0, q). -/
theorem spreadRow_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun e => ?_
  match e with
  | ⟨0, _⟩ => show 0 = if (1 : ℕ) = 1 then 0 else p.val; rw [if_pos rfl]
  | ⟨1, _⟩ =>
    show q.val = if b = 1 then 0 else q.val
    split
    · have := q.isLt; omega
    · rfl

/-- The body's contraction is the product by the transpose: both operands contract their second axis. -/
theorem dot_eq : dot_S256x64_S4096x64_S256x4096_1_1_0_0_n_n = DotDims.transposedRhs 256 64 4096 := rfl

/-- THE STORED BLOCK at (0, r, n), from the four loaded blocks. -/
theorem pay_apply (x0 : Vec Ideal S1x256x64 .f32) (x1 : Vec Ideal S1x4096x64 .f32) (x2 : Vec Ideal S1x256x1 .f32)
    (x3 : Vec Ideal S1x1x4096 .f32) (z : Fin 1) (r : Fin 256) (n : Fin 4096) :
    k0_pay1 (F := Ideal) x0 x1 x2 x3 (ix3 z r n)
      = Ideal.exp (Ideal.ofBits .f32 0xBF000000#32 *
          max ((x2 (ix3 (0 : Fin 1) r (0 : Fin 1)) + x3 (ix3 (0 : Fin 1) (0 : Fin 1) n))
              - Ideal.ofBits .f32 0x40000000#32 * ∑ d : Fin 64, x0 (ix3 (0 : Fin 1) r d) * x1 (ix3 (0 : Fin 1) n d))
            (Ideal.ofBits .f32 0x00000000#32)) := by
  unfold k0_pay1
  rw [addUnit_apply]
  show Ideal.exp (Ideal.ofBits .f32 0xBF000000#32 *
      max ((broadcastTo S256x4096 (shapeCast S256x1 x2 shapeCasts_S1x256x1_S256x1) broadcasts_S256x1_S256x4096 (ix2 r n)
            + broadcastTo S256x4096 (shapeCast S1x4096 x3 shapeCasts_S1x1x4096_S1x4096) broadcasts_S1x4096_S256x4096 (ix2 r n))
          - Ideal.ofBits .f32 0x40000000#32 *
            matmul (F := Ideal) (DotDims.transposedRhs 256 64 4096) none
              (truncf (F := Ideal) .bf16 (shapeCast S256x64 x0 shapeCasts_S1x256x64_S256x64) bitsLt_bf16_f32)
              (truncf (F := Ideal) .bf16 (shapeCast S4096x64 x1 shapeCasts_S1x4096x64_S4096x64) bitsLt_bf16_f32)
              (constant (F := Ideal) S256x4096 .f32 0x00000000#32) (ix2 r n))
        (Ideal.ofBits .f32 0x00000000#32)) = _
  rw [spreadColumn_apply (by decide : (4096 : ℕ) ≠ 1), spreadRow_apply, dropUnit_apply, dropUnit_apply,
    MatmulTransposedRhs.matmul_zero_apply]
  simp only [truncf_apply, dropUnit_apply]

/-- The same at any index j of the stored block: only j's row and column coordinates matter. -/
theorem pay_at (x0 : Vec Ideal S1x256x64 .f32) (x1 : Vec Ideal S1x4096x64 .f32) (x2 : Vec Ideal S1x256x1 .f32)
    (x3 : Vec Ideal S1x1x4096 .f32) (j : S1x256x4096.Idx) :
    k0_pay1 (F := Ideal) x0 x1 x2 x3 j
      = Ideal.exp (Ideal.ofBits .f32 0xBF000000#32 *
          max ((x2 (ix3 (0 : Fin 1) (j 1) (0 : Fin 1)) + x3 (ix3 (0 : Fin 1) (0 : Fin 1) (j 2)))
              - Ideal.ofBits .f32 0x40000000#32 * ∑ d : Fin 64, x0 (ix3 (0 : Fin 1) (j 1) d) * x1 (ix3 (0 : Fin 1) (j 2) d))
            (Ideal.ofBits .f32 0x00000000#32)) := by
  obtain ⟨z, r, n, rfl⟩ : ∃ (z : Fin 1) (r : Fin 256) (n : Fin 4096), j = ix3 z r n := ⟨j 0, j 1, j 2, eq_ix3 j⟩
  exact pay_apply x0 x1 x2 x3 z r n

end Cert.Rbf.Body

end
-- ==== Proof.RegionInputs.lean ====
/-
  The four arrays the kernel's region finds, read entry by entry.

  Before the region the program drops the unit batch axis of both arguments (q, k : [8, 4096, 64]), squares them,
  sums the squares over the feature axis from zero and keeps that axis as a unit one (q2, k2 : [8, 4096, 1]), and
  swaps the last two axes of k2 (k2ᵀ : [8, 1, 4096]). So at (h, r, d) the first two hold the arguments at
  (0, h, r, d), and the norms' arrays hold at (h, r, 0), respectively (h, 0, n), the squared norm of the
  query's row r, respectively the key's row n, of head h.
-/
import proofs.«155053_j75196287418966_1_alg».proof.Proof.Gen.KernelIdeal.Frame
import proofs.«155053_j75196287418966_1_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.Rbf.Inputs

open Cert.KernelIdeal Cert.KernelIdeal.Gen Idealize.ShloMosaic Idealize.ShloMosaic.TcCoe Idealize.SL.Sem
  Idealize.ShloMosaic.StableHlo Idealize.ShloMosaic.ValueIdx Cert.Rbf

/-! ## The host operations, entry by entry -/

/-- An argument with its unit batch axis dropped, at an index whose coordinates are (h, r, d), is the argument at
    (0, h, r, d). -/
theorem dropBatch_at (x : S1x8x4096x64.Idx → EReal) (i : S8x4096x64.Idx) (h : Fin 8) (r : Fin 4096) (d : Fin 64)
    (h0 : (i 0).val = h.val) (h1 : (i 1).val = r.val) (h2 : (i 2).val = d.val) :
    shapeCast S8x4096x64 x shapeCasts_S1x8x4096x64_S8x4096x64 i = x (ix4 (0 : Fin 1) h r d) := by
  rw [shapeCast_dropUnit_apply ![8, 4096, 64] x shapeCasts_S1x8x4096x64_S8x4096x64 i]
  exact congrArg x (funext fun a => Fin.ext (by
    match a with
    | ⟨0, _⟩ => rfl
    | ⟨1, _⟩ => exact h0
    | ⟨2, _⟩ => exact h1
    | ⟨3, _⟩ => exact h2))

/-- The kept-axis row sums of squares of an argument, at an index whose coordinates are (h, r, 0), are the squared
    norm of row r of head h. -/
theorem rowSquares_at (x : S1x8x4096x64.Idx → EReal) (i : S8x4096x1.Idx) (h : Fin 8) (r : Fin 4096)
    (h0 : (i 0).val = h.val) (h1 : (i 1).val = r.val) :
    broadcastInDim S8x4096x1 ![0, 1] bcast_S8x4096_S8x4096x1_0_1
        (Host.reduceAdd (F := Ideal)
          (mulf (F := Ideal) (shapeCast S8x4096x64 x shapeCasts_S1x8x4096x64_S8x4096x64)
            (shapeCast S8x4096x64 x shapeCasts_S1x8x4096x64_S8x4096x64))
          (constant (F := Ideal) S_ .f32 0x00000000#32) reducesTo_S8x4096x64_S8x4096_d2 h_S_) i
      = sqNorm x h r := by
  rw [broadcastInDim_apply _ bcast_S8x4096_S8x4096x1_0_1 _ i (ix2 h r) (fun a => match a with
    | ⟨0, _⟩ => by show h.val = if (8 : ℕ) = 1 then 0 else (i 0).val; rw [if_neg (by decide)]; exact h0.symm
    | ⟨1, _⟩ => by show r.val = if (4096 : ℕ) = 1 then 0 else (i 1).val; rw [if_neg (by decide)]; exact h1.symm)]
  simp only [Host.reduceAdd, Ideal.hostReduceAdd_def]
  rw [Ideal.hostReduceAdd_single reducesTo_S8x4096x64_S8x4096_d2 (by decide)]
  unfold sqNorm
  refine congrArg₂ (· + ·) rfl (Finset.sum_congr rfl fun d _ => ?_)
  rw [mulf_apply]
  rw [dropBatch_at x _ h r d rfl rfl rfl]

/-! ## The arrays as the region finds them -/

variable (m : (ℓ : Loc nD τ sig) → Buf (Elt Ideal) ℓ)

/-- The query array: the first argument without its batch axis. -/
theorem query_eq (c : Dev nD) : (V m c main_call0_v0 : S8x4096x64.Idx → EReal)
    = shapeCast S8x4096x64 (m ((c : Thread nD τ).loc main_arg0)) shapeCasts_S1x8x4096x64_S8x4096x64 := by
  show StableHlo.after hostOps0 (fun b => m (c, b)) (Proc.devRef .tc main_call0_v0) = _
  after_results
  rfl

/-- The key array: the second argument without its batch axis. -/
theorem key_eq (c : Dev nD) : (V m c main_call0_v1 : S8x4096x64.Idx → EReal)
    = shapeCast S8x4096x64 (m ((c : Thread nD τ).loc main_arg1)) shapeCasts_S1x8x4096x64_S8x4096x64 := by
  show StableHlo.after hostOps0 (fun b => m (c, b)) (Proc.devRef .tc main_call0_v1) = _
  after_results
  rfl

/-- The query norms' column array. -/
theorem queryNorms_eq (c : Dev nD) : (V m c main_call0_v4 : S8x4096x1.Idx → EReal)
    = broadcastInDim S8x4096x1 ![0, 1] bcast_S8x4096_S8x4096x1_0_1
        (Host.reduceAdd (F := Ideal)
          (mulf (F := Ideal) (shapeCast S8x4096x64 (m ((c : Thread nD τ).loc main_arg0)) shapeCasts_S1x8x4096x64_S8x4096x64)
            (shapeCast S8x4096x64 (m ((c : Thread nD τ).loc main_arg0)) shapeCasts_S1x8x4096x64_S8x4096x64))
          (constant (F := Ideal) S_ .f32 0x00000000#32) reducesTo_S8x4096x64_S8x4096_d2 h_S_) := by
  show StableHlo.after hostOps0 (fun b => m (c, b)) (Proc.devRef .tc main_call0_v4) = _
  after_results
  rfl

/-- The key norms' row array: the key norms' column array with its last two axes swapped. -/
theorem keyNorms_eq (c : Dev nD) : (V m c main_call0_v8 : S8x1x4096.Idx → EReal)
    = transpose S8x1x4096 [0, 2, 1] (broadcastInDim S8x4096x1 ![0, 1] bcast_S8x4096_S8x4096x1_0_1
        (Host.reduceAdd (F := Ideal)
          (mulf (F := Ideal) (shapeCast S8x4096x64 (m ((c : Thread nD τ).loc main_arg1)) shapeCasts_S1x8x4096x64_S8x4096x64)
            (shapeCast S8x4096x64 (m ((c : Thread nD τ).loc main_arg1)) shapeCasts_S1x8x4096x64_S8x4096x64))
          (constant (F := Ideal) S_ .f32 0x00000000#32) reducesTo_S8x4096x64_S8x4096_d2 h_S_))
        transposes_S8x4096x1_S8x1x4096_0_2_1 := by
  show StableHlo.after hostOps0 (fun b => m (c, b)) (Proc.devRef .tc main_call0_v8) = _
  after_results
  rfl

/-- The query array at (h, r, d). -/
theorem query_at (c : Dev nD) (i : S8x4096x64.Idx) (h : Fin 8) (r : Fin 4096) (d : Fin 64)
    (h0 : (i 0).val = h.val) (h1 : (i 1).val = r.val) (h2 : (i 2).val = d.val) :
    (V m c main_call0_v0 : S8x4096x64.Idx → EReal) i = m ((c : Thread nD τ).loc main_arg0) (ix4 (0 : Fin 1) h r d) := by
  rw [query_eq]; exact dropBatch_at _ i h r d h0 h1 h2

/-- The key array at (h, n, d). -/
theorem key_at (c : Dev nD) (i : S8x4096x64.Idx) (h : Fin 8) (n : Fin 4096) (d : Fin 64)
    (h0 : (i 0).val = h.val) (h1 : (i 1).val = n.val) (h2 : (i 2).val = d.val) :
    (V m c main_call0_v1 : S8x4096x64.Idx → EReal) i = m ((c : Thread nD τ).loc main_arg1) (ix4 (0 : Fin 1) h n d) := by
  rw [key_eq]; exact dropBatch_at _ i h n d h0 h1 h2

/-- The query norms' array at (h, r, 0). -/
theorem queryNorms_at (c : Dev nD) (i : S8x4096x1.Idx) (h : Fin 8) (r : Fin 4096)
    (h0 : (i 0).val = h.val) (h1 : (i 1).val = r.val) :
    (V m c main_call0_v4 : S8x4096x1.Idx → EReal) i = sqNorm (m ((c : Thread nD τ).loc main_arg0)) h r := by
  rw [queryNorms_eq]; exact rowSquares_at _ i h r h0 h1

/-- The key norms' array at (h, 0, n). -/
theorem keyNorms_at (c : Dev nD) (i : S8x1x4096.Idx) (h : Fin 8) (n : Fin 4096)
    (h0 : (i 0).val = h.val) (h2 : (i 2).val = n.val) :
    (V m c main_call0_v8 : S8x1x4096.Idx → EReal) i = sqNorm (m ((c : Thread nD τ).loc main_arg1)) h n := by
  rw [keyNorms_eq]
  have h1 : (i 1).val < 1 := (i 1).isLt
  rw [transpose_apply [0, 2, 1] _ transposes_S8x4096x1_S8x1x4096_0_2_1 i (ix3 h n (0 : Fin 1)) (fun b => match b with
    | ⟨0, _⟩ => h0.symm
    | ⟨1, _⟩ => by show 0 = (i 1).val; omega
    | ⟨2, _⟩ => h2.symm)]
  exact rowSquares_at _ _ h n rfl rfl

end Cert.Rbf.Inputs

end
-- ==== Proof.KernelValue.lean ====
/-
  The array the region leaves, and the program's result after the reshape that follows it.

  The grid has 8 × 16 points, one per head h and block of 256 query rows. At a point the body is launched on rows
  [256·b, 256·b + 256) of the head's query array and of its norms' column, and on the head's whole key array and key
  norms' row; what it stores at (0, r, n) is therefore the radial kernel of query row 256·b + r against key row n,
  which is entry (h, 256·b + r, n) of one array-wide function (`regionOut`). The 128 output blocks are disjoint
  slabs [h] × [256·b, 256·b + 256) × [0, 4096) that fill the [8, 4096, 4096] output array, so the array ends holding
  that function; the reshape after the region only puts a unit batch axis in front.
-/
import proofs.«155053_j75196287418966_1_alg».proof.Proof.Gen.KernelIdeal.Frame
import proofs.«155053_j75196287418966_1_alg».proof.Proof.Spec
import proofs.«155053_j75196287418966_1_alg».proof.Proof.KernelBody
import proofs.«155053_j75196287418966_1_alg».proof.Proof.RegionInputs
import Idealize.ShloMosaic.Lib.Pipeline.Value
import Idealize.ShloMosaic.Lib.ValueIdx

set_option maxRecDepth 16384

noncomputable section

namespace Cert.Rbf.Kernel

open Cert.KernelIdeal Cert.KernelIdeal.Gen Idealize.ShloMosaic Idealize.ShloMosaic.TcCoe Idealize.SL.Sem
  Idealize.ShloMosaic.StableHlo Idealize.ShloMosaic.ValueIdx Cert.Rbf
open Idealize.ShloMosaic.Pipeline (Dat Cfg Window)

variable (m : (ℓ : Loc nD τ sig) → Buf (Elt Ideal) ℓ) (ρ : Dev nD → PrngReg)

theorem hz : (![0, 0, 0] : Fin 3 → Nat) = fun _ => 0 := funext fun a => by fin_cases a <;> rfl

/-- What the region's output array holds in the end: at (h, r, n) the radial kernel of query row r against key
    row n of head h. -/
def regionOut (q k : ArgIdx → EReal) : S8x4096x4096.Idx → EReal := fun i => rbfAt q k (i 0) (i 1) (i 2)

/-- The printed index maps over the 8 × 16 grid: at a point the query block, the query norms' block and the output
    block share head and row-block; the key block and the key norms' block share the head and sit at block 0. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = win0_4.index t (1 : Fin 3)
    ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (0 : Fin 3) ≤ 7 ∧ win0_4.index t (1 : Fin 3) ≤ 15 ∧ win0_4.index t (2 : Fin 3) = 0 :=
  (by decide +kernel : ∀ t : Fin grid0.N, _)

/-- Every (head, row-block) pair is some point's. -/
theorem idx_onto : ∀ (q0 : Fin 8) (q1 : Fin 16), ∃ t : Fin cfg0.N, win0_4.index t = ![q0.val, q1.val, 0] :=
  (by decide +kernel : ∀ (q0 : Fin 8) (q1 : Fin 16), ∃ t : Fin grid0.N, win0_4.index t = ![q0.val, q1.val, 0])

/-- The four input blocks at point t, at their literal types: the query rows, the key rows, the query norms'
    column and the key norms' row. -/
abbrev qBlk (c : Dev nD) (t : Fin cfg0.N) : Vec Ideal S1x256x64 .f32 := iblk m c 0 t
abbrev kBlk (c : Dev nD) (t : Fin cfg0.N) : Vec Ideal S1x4096x64 .f32 := iblk m c 1 t
abbrev q2Blk (c : Dev nD) (t : Fin cfg0.N) : Vec Ideal S1x256x1 .f32 := iblk m c 2 t
abbrev k2Blk (c : Dev nD) (t : Fin cfg0.N) : Vec Ideal S1x1x4096 .f32 := iblk m c 3 t

/-- WHAT POINT t WRITES BACK is block t of `regionOut` of the two arguments. -/
theorem flushed_eq (c : Dev nD) (t : Fin cfg0.N) :
    (dats m 0 c).flushed 4 t = ((cfg0.win 4).blk t).view.read (Elt Ideal)
      (regionOut (m ((c : Thread nD τ).loc main_arg0)) (m ((c : Thread nD τ).loc main_arg1))) := by
  show (cfg0.win 4).cut (grid0.coords t) ((dats m 0 c).after 4 t) = _
  rw [after0_4]
  unfold out0_4
  rw [View.canon_unit_zero hz]
  simp only [View.ld_unit_zero (S := S1x256x64) hz, View.ld_unit_zero (S := S1x4096x64) hz,
    View.ld_unit_zero (S := S1x256x1) hz, View.ld_unit_zero (S := S1x1x4096) hz]
  funext j
  obtain ⟨e00, e01, e02, e10, e11, e12, e20, e21, e22, e30, e31, e32, b0, b1, e42⟩ := idx_facts t
  have hj0 : (j 0).val < 1 := (j 0).isLt
  have hj1 : (j 1).val < 256 := (j 1).isLt
  have hj2 : (j 2).val < 4096 := (j 2).isLt
  show k0_pay1 (F := Ideal) (qBlk m c t) (kBlk m c t) (q2Blk m c t) (k2Blk m c t) j
    = regionOut (m ((c : Thread nD τ).loc main_arg0)) (m ((c : Thread nD τ).loc main_arg1)) (((cfg0.win 4).blk t).view.emb j)
  refine (Body.pay_at (qBlk m c t) (kBlk m c t) (q2Blk m c t) (k2Blk m c t) j).trans ?_
  have hq2 : q2Blk m c t (ix3 (0 : Fin 1) (j 1) (0 : Fin 1))
      = sqNorm (m ((c : Thread nD τ).loc main_arg0)) ((((cfg0.win 4).blk t).view.emb j) 0) ((((cfg0.win 4).blk t).view.emb j) 1) := by
    show (V m c main_call0_v4 : S8x4096x1.Idx → EReal) (((cfg0.win 2).blk t).view.emb (ix3 (0 : Fin 1) (j 1) (0 : Fin 1))) = _
    refine Inputs.queryNorms_at m c _ _ _ ?_ ?_
    · show win0_2.index t (0 : Fin 3) * 1 + 1 * 0 = win0_4.index t (0 : Fin 3) * 1 + 1 * (j 0).val; omega
    · show win0_2.index t (1 : Fin 3) * 256 + 1 * (j 1).val = win0_4.index t (1 : Fin 3) * 256 + 1 * (j 1).val; omega
  have hk2 : k2Blk m c t (ix3 (0 : Fin 1) (0 : Fin 1) (j 2))
      = sqNorm (m ((c : Thread nD τ).loc main_arg1)) ((((cfg0.win 4).blk t).view.emb j) 0) ((((cfg0.win 4).blk t).view.emb j) 2) := by
    show (V m c main_call0_v8 : S8x1x4096.Idx → EReal) (((cfg0.win 3).blk t).view.emb (ix3 (0 : Fin 1) (0 : Fin 1) (j 2))) = _
    refine Inputs.keyNorms_at m c _ _ _ ?_ ?_
    · show win0_3.index t (0 : Fin 3) * 1 + 1 * 0 = win0_4.index t (0 : Fin 3) * 1 + 1 * (j 0).val; omega
    · show win0_3.index t (2 : Fin 3) * 4096 + 1 * (j 2).val = win0_4.index t (2 : Fin 3) * 4096 + 1 * (j 2).val; omega
  have hqk : ∑ d : Fin 64, qBlk m c t (ix3 (0 : Fin 1) (j 1) d) * kBlk m c t (ix3 (0 : Fin 1) (j 2) d)
      = inner (m ((c : Thread nD τ).loc main_arg0)) (m ((c : Thread nD τ).loc main_arg1))
          ((((cfg0.win 4).blk t).view.emb j) 0) ((((cfg0.win 4).blk t).view.emb j) 1) ((((cfg0.win 4).blk t).view.emb j) 2) := by
    unfold inner
    refine Finset.sum_congr rfl fun d _ => ?_
    have hd : d.val < 64 := d.isLt
    have hl : qBlk m c t (ix3 (0 : Fin 1) (j 1) d)
        = m ((c : Thread nD τ).loc main_arg0) (ix4 (0 : Fin 1) ((((cfg0.win 4).blk t).view.emb j) 0) ((((cfg0.win 4).blk t).view.emb j) 1) d) := by
      show (V m c main_call0_v0 : S8x4096x64.Idx → EReal) (((cfg0.win 0).blk t).view.emb (ix3 (0 : Fin 1) (j 1) d)) = _
      refine Inputs.query_at m c _ _ _ _ ?_ ?_ ?_
      · show win0_0.index t (0 : Fin 3) * 1 + 1 * 0 = win0_4.index t (0 : Fin 3) * 1 + 1 * (j 0).val; omega
      · show win0_0.index t (1 : Fin 3) * 256 + 1 * (j 1).val = win0_4.index t (1 : Fin 3) * 256 + 1 * (j 1).val; omega
      · show win0_0.index t (2 : Fin 3) * 64 + 1 * d.val = d.val; omega
    have hr : kBlk m c t (ix3 (0 : Fin 1) (j 2) d)
        = m ((c : Thread nD τ).loc main_arg1) (ix4 (0 : Fin 1) ((((cfg0.win 4).blk t).view.emb j) 0) ((((cfg0.win 4).blk t).view.emb j) 2) d) := by
      show (V m c main_call0_v1 : S8x4096x64.Idx → EReal) (((cfg0.win 1).blk t).view.emb (ix3 (0 : Fin 1) (j 2) d)) = _
      refine Inputs.key_at m c _ _ _ _ ?_ ?_ ?_
      · show win0_1.index t (0 : Fin 3) * 1 + 1 * 0 = win0_4.index t (0 : Fin 3) * 1 + 1 * (j 0).val; omega
      · show win0_1.index t (1 : Fin 3) * 4096 + 1 * (j 2).val = win0_4.index t (2 : Fin 3) * 4096 + 1 * (j 2).val; omega
      · show win0_1.index t (2 : Fin 3) * 64 + 1 * d.val = d.val; omega
    rw [hl, hr]
  rw [hq2, hk2, hqk]
  rfl

/-- An index of the output array is in point t's block iff each coordinate is in the block's range on its axis. -/
theorem mem_blk (t : Fin cfg0.N) (i : S8x4096x4096.Idx) :
    i ∈ ((cfg0.win 4).blk t).view.set ↔ ∀ a : Fin 3, win0_4.index t a * S1x256x4096.size a ≤ (i a).val
      ∧ (i a).val < win0_4.index t a * S1x256x4096.size a + S1x256x4096.size a := by
  show i ∈ ((View.whole main_call0_v9).slice (win0_4.rect t)).set ↔ _
  rw [View.set_slice_whole, Rect.mem_set_unit]
  exact Iff.rfl

/-- The blocks fill the array: (h, r, n) lies in the block of the point at head h and row-block r / 256. -/
theorem cover (i : S8x4096x4096.Idx) :
    ∃ t : Fin cfg0.N, (cfg0.win 4).flush t = true ∧ i ∈ ((cfg0.win 4).blk t).view.set := by
  have hi0 : (i 0).val < 8 := (i 0).isLt
  have hi1 : (i 1).val < 4096 := (i 1).isLt
  have hi2 : (i 2).val < 4096 := (i 2).isLt
  obtain ⟨t, ht⟩ := idx_onto ⟨(i 0).val, hi0⟩ ⟨(i 1).val / 256, by omega⟩
  have q0 : win0_4.index t (0 : Fin 3) = (i 0).val := congrFun ht 0
  have q1 : win0_4.index t (1 : Fin 3) = (i 1).val / 256 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 4096 ≤ (i 2).val ∧ (i 2).val < win0_4.index t (2 : Fin 3) * 4096 + 4096; omega

/-- THE OUTPUT ARRAY after the region. -/
theorem final (c : Dev nD) : (dats m 0 c).arrAt 4 cfg0.N
    = regionOut (m ((c : Thread nD τ).loc main_arg0)) (m ((c : Thread nD τ).loc main_arg1)) :=
  (dats m 0 c).arrAt_eq_of_cover 4 _ (fun t _ => flushed_eq m c t) cover

/-- THE PROGRAM'S RESULT: the output array with the unit batch axis put back. -/
theorem result_eq (c : Dev nD) :
    Pipeline.afterTail₀ cfgs (dats m) 0 (V0 m) [hostOps1] c main_v0
      = rbf (m ((c : Thread nD τ).loc main_arg0)) (m ((c : Thread nD τ).loc main_arg1)) := by
  unfold Pipeline.afterTail₀
  show StableHlo.after hostOps1 _ (Proc.devRef .tc main_v0) = _
  after_results
  have hw := (Pipeline.withArrays_arr spec0 launch0.win.arr_inj c (V0 m c) (fun w => (dats m 0 c).arrAt w cfg0.N) 4).trans (final m c)
  funext i
  show shapeCast S1x8x4096x4096 (Pipeline.withArrays spec0 c (V0 m c) (fun w => (dats m 0 c).arrAt w cfg0.N)
      (Proc.devRef .tc (Pipeline.arrRef spec0 4))) shapeCasts_S8x4096x4096_S1x8x4096x4096 i = _
  rw [hw, shapeCast_addUnit_apply ![8, 4096, 4096]]
  rfl

/-- THE RUN, READ: the idealized kernel's program ends with its result at the radial-kernel function of its
    arguments, and the arguments unchanged. -/
theorem run : θ_run defs (onTc (τ := τ) (main (F := Ideal))) ⟨m, fun _ => 0, ρ⟩ fun r => ∀ c : Dev nD,
      r.2.mem ((c.tc : Thread nD τ).loc main_v0) = rbf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v0 (Pipeline.mem_restRefs_of main_v0 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.Rbf.Kernel

end
-- ==== Proof.lean ====
/-
  A pairwise radial kernel of queries against keys, eight heads of 4096 rows of 64 features:

      out[0, h, r, n] = exp( -1/2 · max( (‖q[h,r]‖² + ‖k[h,n]‖²) − 2 · ⟨q[h,r], k[h,n]⟩ , 0 ) ).

  The kernel program computes the two arrays of squared norms on the host, then, block of 256 query rows by block,
  multiplies the query block by the transpose of the head's whole key array, adds the norms' column and row, and
  finishes the formula entrywise; a reshape puts the unit batch axis back. The reference program computes the
  same formula with one batched product and broadcasts. On the extended reals both are the SAME expression of
  the same sums, operation for operation — the only difference is how the 64-term sums are indexed and how the
  result is tiled — so no law of arithmetic beyond re-indexing a finite sum is used, and the inputs' finiteness
  is never opened.

  Spec.lean states the function; RefValue.lean reads the reference at an index; KernelBody.lean reads what the body
  stores at an entry; RegionInputs.lean reads the four arrays the region is launched on; KernelValue.lean joins the
  blocks into the output array and follows the final reshape.
-/
import proofs.«155053_j75196287418966_1_alg».proof.Defs
import proofs.«155053_j75196287418966_1_alg».proof.Proof.Gen.Kernel
import proofs.«155053_j75196287418966_1_alg».proof.Proof.Gen.Kernel.Skeleton
import proofs.«155053_j75196287418966_1_alg».proof.Proof.Gen.Kernel.Launch
import proofs.«155053_j75196287418966_1_alg».proof.Proof.Gen.Kernel.Points
import proofs.«155053_j75196287418966_1_alg».proof.Proof.Gen.Kernel.Frame
import proofs.«155053_j75196287418966_1_alg».proof.Proof.Gen.KernelIdeal
import proofs.«155053_j75196287418966_1_alg».proof.Proof.Gen.KernelIdeal.Skeleton
import proofs.«155053_j75196287418966_1_alg».proof.Proof.Gen.KernelIdeal.Launch
import proofs.«155053_j75196287418966_1_alg».proof.Proof.Gen.KernelIdeal.Points
import proofs.«155053_j75196287418966_1_alg».proof.Proof.Gen.KernelIdeal.Frame
import proofs.«155053_j75196287418966_1_alg».proof.Proof.Gen.ReferenceIdeal
import proofs.«155053_j75196287418966_1_alg».proof.Proof.Gen.Pre_finite_inputs
import proofs.«155053_j75196287418966_1_alg».proof.Proof.Gen.ReferenceIdeal.Run
import proofs.«155053_j75196287418966_1_alg».proof.Proof.Gen.ReferenceIdeal.Read
import proofs.«155053_j75196287418966_1_alg».proof.Proof.Spec
import proofs.«155053_j75196287418966_1_alg».proof.Proof.RefValue
import proofs.«155053_j75196287418966_1_alg».proof.Proof.KernelValue
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the radial-kernel function of their (agreeing) arguments. -/
theorem algebraic : Cert.algebraic_KernelIdeal_ReferenceIdeal := by
  intro m ρ m' ρ' _ hagree
  refine ⟨fun c => Cert.Rbf.rbf (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Rbf.Kernel.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v17_eq, Cert.Rbf.Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
